-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S4x1024x1024 .f32) (main_arg2 : FVec F S4x1024 .f32) (main_arg3 : FVec F S1024x1024 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1x1024 : Shape := ⟨2, ![1, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S1024x1024, .f32⟩
  | .hbm, ⟨4, _⟩ => ⟨S1024, .f32⟩
  | .hbm, ⟨5, _⟩ => ⟨S4x1024x1024, .f32⟩
  | .hbm, ⟨6, _⟩ => ⟨S4x1024x1024, .bf16⟩
  | .hbm, ⟨7, _⟩ => ⟨S1024x1024, .f32⟩
  | .hbm, ⟨8, _⟩ => ⟨S1024x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1024x1024, .bf16⟩
  | .local _ .vmem, ⟨3, _⟩ => ⟨S4x1024, .f32⟩
  | .local _ .vmem, ⟨4, _⟩ => ⟨S1024x1024, .bf16⟩
  | .local _ .vmem, ⟨5, _⟩ => ⟨S1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S4x1024x1024_S4x1024x1024_0_2_1 : S4x1024x1024.Transposes [0, 2, 1] S4x1024x1024
  bitsLt_bf16_f32 : FTy.bits .bf16 < FTy.bits .f32
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S4x1024x1024.size a
  hwx0_1 : ∀ i : grid0.Coords, EltTy.bits .bf16 = 32 ∨ (Rect.block (s := S4x1024x1024) S4x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S1x1024x1024, .f32⟩
  | .hbm, ⟨14, _⟩ => ⟨S1024x1024, .f32⟩
  | .hbm, ⟨15, _⟩ => ⟨S1024x1024, .f32⟩
  | .hbm, ⟨16, _⟩ => ⟨S16384x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1x1024x1024, .f32⟩
  | .hbm, ⟨26, _⟩ => ⟨S1024x1024, .f32⟩
  | .hbm, ⟨27, _⟩ => ⟨S1024x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S1x1024x1024, .f32⟩
  | .hbm, ⟨38, _⟩ => ⟨S1024x1024, .f32⟩
  | .hbm, ⟨39, _⟩ => ⟨S1024x1024, .f32⟩
  | .hbm, ⟨40, _⟩ => ⟨S16384x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S1x1024x1024, .f32⟩
  | .hbm, ⟨50, _⟩ => ⟨S1024x1024, .f32⟩
  | .hbm, ⟨51, _⟩ => ⟨S1024x1024, .f32⟩
  | .hbm, ⟨52, _⟩ => ⟨S16384x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call2_cst : Ref sig .tc := ⟨.hbm, 34, rfl⟩
abbrev main_call2_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call3_cst : Ref sig .tc := ⟨.hbm, 46, rfl⟩
abbrev main_call3_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call4_cst : Ref sig .tc := ⟨.hbm, 58, rfl⟩
abbrev main_call4_v0 : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  slices_S4x1024x1024_S1x1024x1024_0_0_0 : S4x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S4x1024x1024_S1x1024x1024_1_0_0 : S4x1024x1024.Slices ![1, 0, 0] S1x1024x1024
  slices_S4x1024_S1x1024_1_0 : S4x1024.Slices ![1, 0] S1x1024
  slices_S4x1024x1024_S1x1024x1024_2_0_0 : S4x1024x1024.Slices ![2, 0, 0] S1x1024x1024
  slices_S4x1024_S1x1024_2_0 : S4x1024.Slices ![2, 0] S1x1024
  slices_S4x1024x1024_S1x1024x1024_3_0_0 : S4x1024x1024.Slices ![3, 0, 0] S1x1024x1024
  slices_S4x1024_S1x1024_3_0 : S4x1024.Slices ![3, 0] S1x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.RowMath.lean ====
/-
  The mathematics of one batch row, and the result array as one function of the argument arrays.

  A row `x` of 1024 extended reals is sent through two branches that meet again:
  * the pairwise-interaction term `cross x j = max (x j * ∑ k, x k) 0`: every entry times the row's sum, rectified;
  * a tower of four dense layers, each `h ↦ fun j => max ((∑ k, h k * W j k) + b j) 0` (a product with the
    transposed weight matrix, a bias, a rectifier).
  The two are added, scaled by the constant `half`, and sent through one last affine map `z ↦ (∑ k, z k * Wo j k) + bo j`.
  Every row is treated alike and independently of the others, so the whole result is `rowOut` of each row.

  Nothing here is rearranged: both programs compute exactly these sums of products in exactly this shape (only the
  tiling of the rows, the storage of the transposed weights and the number formats differ, and none of those is visible
  on the extended reals), so no law of the extended reals beyond `0 + a = a` is used and no finiteness is needed.
-/
import Idealize.ShloMosaic.PureOps.Ideal
import Idealize.ShloMosaic.Lib.ValueIdx

noncomputable section

namespace Cert.FmTower

open Idealize.ShloMosaic Idealize.ShloMosaic.ValueIdx

/-- One row of the batch. -/
abbrev Row : Type := Fin 1024 → EReal

/-- A weight matrix, `W j k` the weight from input feature `k` to output feature `j`. -/
abbrev Mat : Type := Fin 1024 → Fin 1024 → EReal

/-- The pairwise-interaction term: each entry times the sum of the row, rectified. -/
def cross (x : Row) : Row := fun j => max (x j * ∑ k : Fin 1024, x k) 0

/-- One dense layer: the product with the transposed weights, plus the bias, rectified. -/
def dense (W : Mat) (b : Row) (h : Row) : Row := fun j => max ((∑ k : Fin 1024, h k * W j k) + b j) 0

/-- The four layers, innermost first. -/
def tower (W : Fin 4 → Mat) (b : Fin 4 → Row) (x : Row) : Row :=
  dense (W 3) (b 3) (dense (W 2) (b 2) (dense (W 1) (b 1) (dense (W 0) (b 0) x)))

/-- The two branches added and scaled. -/
def blend (half : EReal) (h c : Row) : Row := fun k => (h k + c k) * half

/-- The output projection: an affine map, not rectified. -/
def project (Wo : Mat) (bo : Row) (z : Row) : Row := fun j => (∑ k : Fin 1024, z k * Wo j k) + bo j

/-- What one row becomes. -/
def rowOut (half : EReal) (W : Fin 4 → Mat) (b : Fin 4 → Row) (Wo : Mat) (bo : Row) (x : Row) : Row :=
  project Wo bo (blend half (tower W b x) (cross x))

/-! ## The arrays -/

/-- Row `r` of a `[n, 1024]` array. -/
abbrev rowOf {n : Nat} (x : (⟨2, ![n, 1024]⟩ : Shape).Idx → EReal) (r : Fin n) : Row := fun k => x (ix2 r k)

/-- Layer `l`'s weight matrix out of the `[4, 1024, 1024]` stack, stored output feature first. -/
abbrev matOf (Ws : (⟨3, ![4, 1024, 1024]⟩ : Shape).Idx → EReal) (l : Fin 4) : Mat := fun j k => Ws (ix3 l j k)

/-- Layer `l`'s weight matrix out of a stack stored TRANSPOSED, input feature first. -/
abbrev matOfT (Wt : (⟨3, ![4, 1024, 1024]⟩ : Shape).Idx → EReal) (l : Fin 4) : Mat := fun j k => Wt (ix3 l k j)

/-- Layer `l`'s bias out of the `[4, 1024]` array. -/
abbrev biasOf (bs : (⟨2, ![4, 1024]⟩ : Shape).Idx → EReal) (l : Fin 4) : Row := fun j => bs (ix2 l j)

/-- The output weights, stored output feature first, and stored transposed. -/
abbrev outMat (Wo : (⟨2, ![1024, 1024]⟩ : Shape).Idx → EReal) : Mat := fun j k => Wo (ix2 j k)
abbrev outMatT (Wt : (⟨2, ![1024, 1024]⟩ : Shape).Idx → EReal) : Mat := fun j k => Wt (ix2 k j)

/-- The output bias. -/
abbrev outBias (bo : (⟨1, ![1024]⟩ : Shape).Idx → EReal) : Row := fun j => bo (ix1 j)

/-- The scale both programs write as the word `0x3F000000`; its value is never needed. -/
abbrev half : EReal := Ideal.ofBits .f32 0x3F000000#32

/-- THE RESULT as one function of the five argument arrays: entry `(r, j)` is entry `j` of what row `r` becomes. -/
def result (x : (⟨2, ![16384, 1024]⟩ : Shape).Idx → EReal) (Ws : (⟨3, ![4, 1024, 1024]⟩ : Shape).Idx → EReal)
    (bs : (⟨2, ![4, 1024]⟩ : Shape).Idx → EReal) (Wo : (⟨2, ![1024, 1024]⟩ : Shape).Idx → EReal)
    (bo : (⟨1, ![1024]⟩ : Shape).Idx → EReal) : (⟨2, ![16384, 1024]⟩ : Shape).Idx → EReal :=
  fun i => rowOut half (matOf Ws) (biasOf bs) (outMat Wo) (outBias bo) (rowOf x (i 0)) (i 1)

theorem result_apply (x : (⟨2, ![16384, 1024]⟩ : Shape).Idx → EReal) (Ws : (⟨3, ![4, 1024, 1024]⟩ : Shape).Idx → EReal)
    (bs : (⟨2, ![4, 1024]⟩ : Shape).Idx → EReal) (Wo : (⟨2, ![1024, 1024]⟩ : Shape).Idx → EReal)
    (bo : (⟨1, ![1024]⟩ : Shape).Idx → EReal) (r : Fin 16384) (j : Fin 1024) :
    result x Ws bs Wo bo (ix2 r j) = rowOut half (matOf Ws) (biasOf bs) (outMat Wo) (outBias bo) (rowOf x r) j := rfl

end Cert.FmTower

end
-- ==== Proof.RefRows.lean ====
/-
  The reference computes `Cert.FmTower.result` of its five argument arrays.

  Its program is a chain of whole-array host operations. Read at an entry `(r, j)`:
  * the row sums are a reduction from the zero word, broadcast back along the row, multiplied into `x` and rectified:
    `cross` of row `r`;
  * layer `l` slices matrix `l` out of the weight stack, reshapes and transposes it, and contracts the previous stage's
    second axis with the transposed matrix's first: entry `(k, j)` of the transposed slice is `W l j k`, so the product at
    `(r, j)` is `∑ k, h r k * W l j k`; the bias row `l` is broadcast over the rows, added, and the sum rectified:
    `dense` of the previous stage's row `r`;
  * the two branches are added, multiplied by the splat of the word `0x3F000000`, contracted with the transposed output
    weights, and the output bias is added: `project` of `blend`.
  Each operation is read at an index by the generated stage lemmas; what is written here is how the indices compose
  (a reshape's index is arithmetic `omega` settles) and the induction-free climb through the four layers.
-/
import proofs.«180553_j66468913873627_1_alg».proof.Proof.Gen.ReferenceIdeal.Read
import proofs.«180553_j66468913873627_1_alg».proof.Proof.RowMath
import Idealize.ShloMosaic.Lib.ValueIdx
import Idealize.ShloMosaic.PureOps.Ideal.Laws

noncomputable section

namespace Cert.ReferenceIdeal.Rows

open Cert.ReferenceIdeal Cert.ReferenceIdeal.Read Cert.FmTower
open Idealize.ShloMosaic Idealize.ShloMosaic.ValueIdx

/-! ## The weight matrices as the products meet them: sliced, reshaped, transposed -/

/-- Entry `(k, j)` of layer 0's transposed matrix is the stack's `(0, j, k)`. -/
theorem weightsT0 (x1 : (⟨S4x1024x1024, .f32⟩ : BufTy).Contents (Elt Ideal)) (k j : Fin 1024) :
    val_main_v7 (F := Ideal) x1 (ix2 k j) = x1 (ix3 (0 : Fin 4) j k) := by
  rw [val_main_v7_apply, val_main_v6_apply, val_main_v5_apply]
  refine congrArg x1 (funext fun a => Fin.ext ?_)
  have hj := j.isLt; have hk := k.isLt
  match a with
  | ⟨0, _⟩ => rfl
  | ⟨1, _⟩ => show (j.val * 1024 + k.val) / 1024 % 1024 = j.val; omega
  | ⟨2, _⟩ => show (j.val * 1024 + k.val) % 1024 = k.val; omega

/-- Layer 1's: the stack's `(1, j, k)`. -/
theorem weightsT1 (x1 : (⟨S4x1024x1024, .f32⟩ : BufTy).Contents (Elt Ideal)) (k j : Fin 1024) :
    val_main_v17 (F := Ideal) x1 (ix2 k j) = x1 (ix3 (1 : Fin 4) j k) := by
  rw [val_main_v17_apply, val_main_v16_apply, val_main_v15_apply]
  refine congrArg x1 (funext fun a => Fin.ext ?_)
  have hj := j.isLt; have hk := k.isLt
  match a with
  | ⟨0, _⟩ => rfl
  | ⟨1, _⟩ => show (j.val * 1024 + k.val) / 1024 % 1024 = j.val; omega
  | ⟨2, _⟩ => show (j.val * 1024 + k.val) % 1024 = k.val; omega

/-- Layer 2's: the stack's `(2, j, k)`. -/
theorem weightsT2 (x1 : (⟨S4x1024x1024, .f32⟩ : BufTy).Contents (Elt Ideal)) (k j : Fin 1024) :
    val_main_v27 (F := Ideal) x1 (ix2 k j) = x1 (ix3 (2 : Fin 4) j k) := by
  rw [val_main_v27_apply, val_main_v26_apply, val_main_v25_apply]
  refine congrArg x1 (funext fun a => Fin.ext ?_)
  have hj := j.isLt; have hk := k.isLt
  match a with
  | ⟨0, _⟩ => rfl
  | ⟨1, _⟩ => show (j.val * 1024 + k.val) / 1024 % 1024 = j.val; omega
  | ⟨2, _⟩ => show (j.val * 1024 + k.val) % 1024 = k.val; omega

/-- Layer 3's: the stack's `(3, j, k)`. -/
theorem weightsT3 (x1 : (⟨S4x1024x1024, .f32⟩ : BufTy).Contents (Elt Ideal)) (k j : Fin 1024) :
    val_main_v37 (F := Ideal) x1 (ix2 k j) = x1 (ix3 (3 : Fin 4) j k) := by
  rw [val_main_v37_apply, val_main_v36_apply, val_main_v35_apply]
  refine congrArg x1 (funext fun a => Fin.ext ?_)
  have hj := j.isLt; have hk := k.isLt
  match a with
  | ⟨0, _⟩ => rfl
  | ⟨1, _⟩ => show (j.val * 1024 + k.val) / 1024 % 1024 = j.val; omega
  | ⟨2, _⟩ => show (j.val * 1024 + k.val) % 1024 = k.val; omega

/-- The output weights transposed: entry `(k, j)` is `Wo (j, k)`. -/
theorem outWeightsT (x3 : (⟨S1024x1024, .f32⟩ : BufTy).Contents (Elt Ideal)) (k j : Fin 1024) :
    val_main_v48 (F := Ideal) x3 (ix2 k j) = x3 (ix2 j k) := by
  rw [val_main_v48_apply]
  refine congrArg x3 (funext fun a => Fin.ext ?_)
  match a with
  | ⟨0, _⟩ => rfl
  | ⟨1, _⟩ => rfl

/-! ## The bias rows as the sums meet them: sliced, reshaped, broadcast over the rows -/

theorem biasRow0 (x2 : (⟨S4x1024, .f32⟩ : BufTy).Contents (Elt Ideal)) (r : Fin 16384) (j : Fin 1024) :
    val_main_v12 (F := Ideal) x2 (ix2 r j) = x2 (ix2 (0 : Fin 4) j) := by
  rw [val_main_v12_apply, val_main_v11_apply, val_main_v10_apply, val_main_v9_apply]
  refine congrArg x2 (funext fun a => Fin.ext ?_)
  have hj := j.isLt
  match a with
  | ⟨0, _⟩ => rfl
  | ⟨1, _⟩ => show j.val % 1024 = j.val; omega

theorem biasRow1 (x2 : (⟨S4x1024, .f32⟩ : BufTy).Contents (Elt Ideal)) (r : Fin 16384) (j : Fin 1024) :
    val_main_v22 (F := Ideal) x2 (ix2 r j) = x2 (ix2 (1 : Fin 4) j) := by
  rw [val_main_v22_apply, val_main_v21_apply, val_main_v20_apply, val_main_v19_apply]
  refine congrArg x2 (funext fun a => Fin.ext ?_)
  have hj := j.isLt
  match a with
  | ⟨0, _⟩ => rfl
  | ⟨1, _⟩ => show j.val % 1024 = j.val; omega

theorem biasRow2 (x2 : (⟨S4x1024, .f32⟩ : BufTy).Contents (Elt Ideal)) (r : Fin 16384) (j : Fin 1024) :
    val_main_v32 (F := Ideal) x2 (ix2 r j) = x2 (ix2 (2 : Fin 4) j) := by
  rw [val_main_v32_apply, val_main_v31_apply, val_main_v30_apply, val_main_v29_apply]
  refine congrArg x2 (funext fun a => Fin.ext ?_)
  have hj := j.isLt
  match a with
  | ⟨0, _⟩ => rfl
  | ⟨1, _⟩ => show j.val % 1024 = j.val; omega

theorem biasRow3 (x2 : (⟨S4x1024, .f32⟩ : BufTy).Contents (Elt Ideal)) (r : Fin 16384) (j : Fin 1024) :
    val_main_v42 (F := Ideal) x2 (ix2 r j) = x2 (ix2 (3 : Fin 4) j) := by
  rw [val_main_v42_apply, val_main_v41_apply, val_main_v40_apply, val_main_v39_apply]
  refine congrArg x2 (funext fun a => Fin.ext ?_)
  have hj := j.isLt
  match a with
  | ⟨0, _⟩ => rfl
  | ⟨1, _⟩ => show j.val % 1024 = j.val; omega

theorem outBiasRow (x4 : (⟨S1024, .f32⟩ : BufTy).Contents (Elt Ideal)) (r : Fin 16384) (j : Fin 1024) :
    val_main_v51 (F := Ideal) x4 (ix2 r j) = x4 (ix1 j) := by
  rw [val_main_v51_apply, val_main_v50_apply]
  refine congrArg x4 (funext fun a => Fin.ext ?_)
  match a with
  | ⟨0, _⟩ => rfl

/-! ## The constants: the rectifier's zero splats and the scale -/

theorem zeroSplat0 (i : S16384x1024.Idx) : val_main_call0_v0 (F := Ideal) i = 0 := by
  rw [val_main_call0_v0_apply, val_main_call0_cst_apply]; exact Ideal.ofBits_zero_f32
theorem zeroSplat1 (i : S16384x1024.Idx) : val_main_call1_v0 (F := Ideal) i = 0 := by
  rw [val_main_call1_v0_apply, val_main_call1_cst_apply]; exact Ideal.ofBits_zero_f32
theorem zeroSplat2 (i : S16384x1024.Idx) : val_main_call2_v0 (F := Ideal) i = 0 := by
  rw [val_main_call2_v0_apply, val_main_call2_cst_apply]; exact Ideal.ofBits_zero_f32
theorem zeroSplat3 (i : S16384x1024.Idx) : val_main_call3_v0 (F := Ideal) i = 0 := by
  rw [val_main_call3_v0_apply, val_main_call3_cst_apply]; exact Ideal.ofBits_zero_f32
theorem zeroSplat4 (i : S16384x1024.Idx) : val_main_call4_v0 (F := Ideal) i = 0 := by
  rw [val_main_call4_v0_apply, val_main_call4_cst_apply]; exact Ideal.ofBits_zero_f32

theorem scaleSplat (i : S16384x1024.Idx) : val_main_v46 (F := Ideal) i = half := by
  rw [val_main_v46_apply, val_main_cst_0_apply]; rfl

/-! ## The operand indices of the five contractions at entry `(r, j)`: `(r, k)` on the left, `(k, j)` on the right -/

theorem lidx8 (r : Fin 16384) (j k : Fin 1024) : lidx_main_v8 (ix2 r j) k = ix2 r k :=
  funext fun a => Fin.ext (by match a with | ⟨0, _⟩ => rfl | ⟨1, _⟩ => rfl)
theorem ridx8 (r : Fin 16384) (j k : Fin 1024) : ridx_main_v8 (ix2 r j) k = ix2 k j :=
  funext fun a => Fin.ext (by match a with | ⟨0, _⟩ => rfl | ⟨1, _⟩ => rfl)
theorem lidx18 (r : Fin 16384) (j k : Fin 1024) : lidx_main_v18 (ix2 r j) k = ix2 r k :=
  funext fun a => Fin.ext (by match a with | ⟨0, _⟩ => rfl | ⟨1, _⟩ => rfl)
theorem ridx18 (r : Fin 16384) (j k : Fin 1024) : ridx_main_v18 (ix2 r j) k = ix2 k j :=
  funext fun a => Fin.ext (by match a with | ⟨0, _⟩ => rfl | ⟨1, _⟩ => rfl)
theorem lidx28 (r : Fin 16384) (j k : Fin 1024) : lidx_main_v28 (ix2 r j) k = ix2 r k :=
  funext fun a => Fin.ext (by match a with | ⟨0, _⟩ => rfl | ⟨1, _⟩ => rfl)
theorem ridx28 (r : Fin 16384) (j k : Fin 1024) : ridx_main_v28 (ix2 r j) k = ix2 k j :=
  funext fun a => Fin.ext (by match a with | ⟨0, _⟩ => rfl | ⟨1, _⟩ => rfl)
theorem lidx38 (r : Fin 16384) (j k : Fin 1024) : lidx_main_v38 (ix2 r j) k = ix2 r k :=
  funext fun a => Fin.ext (by match a with | ⟨0, _⟩ => rfl | ⟨1, _⟩ => rfl)
theorem ridx38 (r : Fin 16384) (j k : Fin 1024) : ridx_main_v38 (ix2 r j) k = ix2 k j :=
  funext fun a => Fin.ext (by match a with | ⟨0, _⟩ => rfl | ⟨1, _⟩ => rfl)
theorem lidx49 (r : Fin 16384) (j k : Fin 1024) : lidx_main_v49 (ix2 r j) k = ix2 r k :=
  funext fun a => Fin.ext (by match a with | ⟨0, _⟩ => rfl | ⟨1, _⟩ => rfl)
theorem ridx49 (r : Fin 16384) (j k : Fin 1024) : ridx_main_v49 (ix2 r j) k = ix2 k j :=
  funext fun a => Fin.ext (by match a with | ⟨0, _⟩ => rfl | ⟨1, _⟩ => rfl)

/-! ## The interaction branch -/

/-- The rectified product of `x` with its broadcast row sums is `cross` of the row; the reduction starts from the zero
    word, which is the extended real `0`. -/
theorem cross_eq (x0 : (⟨S16384x1024, .f32⟩ : BufTy).Contents (Elt Ideal)) (r : Fin 16384) (j : Fin 1024) :
    val_main_v4 (F := Ideal) x0 (ix2 r j) = cross (rowOf x0 r) j := by
  rw [val_main_v4_apply, val_main_v3_apply, val_main_v2_apply, val_main_v1_apply, val_main_v0_apply, zeroSplat0,
    val_main_cst_apply]
  show max (x0 (ix2 r j) * (Ideal.ofBits .f32 0x00000000#32 + ∑ k : Fin 1024, x0 (idx_main_v0 _ k))) 0 = _
  rw [Ideal.ofBits_zero_f32, zero_add]
  unfold cross
  refine congrArg (fun s => max (x0 (ix2 r j) * s) 0) (Finset.sum_congr rfl fun k _ => congrArg x0 (funext fun a => Fin.ext ?_))
  match a with
  | ⟨0, _⟩ => rfl
  | ⟨1, _⟩ => rfl

/-! ## The tower, one layer on the one before -/

theorem layer0 (x0 : (⟨S16384x1024, .f32⟩ : BufTy).Contents (Elt Ideal)) (x1 : (⟨S4x1024x1024, .f32⟩ : BufTy).Contents (Elt Ideal)) (x2 : (⟨S4x1024, .f32⟩ : BufTy).Contents (Elt Ideal)) (r : Fin 16384) (j : Fin 1024) :
    val_main_v14 (F := Ideal) x0 x1 x2 (ix2 r j) = dense (matOf x1 0) (biasOf x2 0) (rowOf x0 r) j := by
  rw [val_main_v14_apply, val_main_v13_apply, val_main_v8_apply, biasRow0, zeroSplat1]
  unfold dense
  refine congrArg (fun s => max (s + x2 (ix2 (0 : Fin 4) j)) 0) (Finset.sum_congr rfl fun k _ => ?_)
  rw [lidx8, ridx8, weightsT0]

theorem layer1 (x0 : (⟨S16384x1024, .f32⟩ : BufTy).Contents (Elt Ideal)) (x1 : (⟨S4x1024x1024, .f32⟩ : BufTy).Contents (Elt Ideal)) (x2 : (⟨S4x1024, .f32⟩ : BufTy).Contents (Elt Ideal)) (r : Fin 16384) (j : Fin 1024) :
    val_main_v24 (F := Ideal) x0 x1 x2 (ix2 r j)
      = dense (matOf x1 1) (biasOf x2 1) (dense (matOf x1 0) (biasOf x2 0) (rowOf x0 r)) j := by
  rw [val_main_v24_apply, val_main_v23_apply, val_main_v18_apply, biasRow1, zeroSplat2]
  unfold dense
  refine congrArg (fun s => max (s + x2 (ix2 (1 : Fin 4) j)) 0) (Finset.sum_congr rfl fun k _ => ?_)
  rw [lidx18, ridx18, weightsT1, layer0]
  rfl

theorem layer2 (x0 : (⟨S16384x1024, .f32⟩ : BufTy).Contents (Elt Ideal)) (x1 : (⟨S4x1024x1024, .f32⟩ : BufTy).Contents (Elt Ideal)) (x2 : (⟨S4x1024, .f32⟩ : BufTy).Contents (Elt Ideal)) (r : Fin 16384) (j : Fin 1024) :
    val_main_v34 (F := Ideal) x0 x1 x2 (ix2 r j)
      = dense (matOf x1 2) (biasOf x2 2) (dense (matOf x1 1) (biasOf x2 1) (dense (matOf x1 0) (biasOf x2 0) (rowOf x0 r))) j := by
  rw [val_main_v34_apply, val_main_v33_apply, val_main_v28_apply, biasRow2, zeroSplat3]
  unfold dense
  refine congrArg (fun s => max (s + x2 (ix2 (2 : Fin 4) j)) 0) (Finset.sum_congr rfl fun k _ => ?_)
  rw [lidx28, ridx28, weightsT2, layer1]
  rfl

theorem layer3 (x0 : (⟨S16384x1024, .f32⟩ : BufTy).Contents (Elt Ideal)) (x1 : (⟨S4x1024x1024, .f32⟩ : BufTy).Contents (Elt Ideal)) (x2 : (⟨S4x1024, .f32⟩ : BufTy).Contents (Elt Ideal)) (r : Fin 16384) (j : Fin 1024) :
    val_main_v44 (F := Ideal) x0 x1 x2 (ix2 r j) = tower (matOf x1) (biasOf x2) (rowOf x0 r) j := by
  rw [val_main_v44_apply, val_main_v43_apply, val_main_v38_apply, biasRow3, zeroSplat4]
  unfold tower dense
  refine congrArg (fun s => max (s + x2 (ix2 (3 : Fin 4) j)) 0) (Finset.sum_congr rfl fun k _ => ?_)
  rw [lidx38, ridx38, weightsT3, layer2]
  rfl

/-! ## The reference is `result` -/

/-- The last stage of the reference, as a function of its five arguments, is `result` of them. -/
theorem reference_eq_result (x0 : (⟨S16384x1024, .f32⟩ : BufTy).Contents (Elt Ideal)) (x1 : (⟨S4x1024x1024, .f32⟩ : BufTy).Contents (Elt Ideal)) (x2 : (⟨S4x1024, .f32⟩ : BufTy).Contents (Elt Ideal)) (x3 : (⟨S1024x1024, .f32⟩ : BufTy).Contents (Elt Ideal)) (x4 : (⟨S1024, .f32⟩ : BufTy).Contents (Elt Ideal)) :
    val_main_v52 (F := Ideal) x0 x1 x2 x3 x4 = result x0 x1 x2 x3 x4 := by
  funext i
  obtain ⟨r, j, rfl⟩ : ∃ (r : Fin 16384) (j : Fin 1024), i = ix2 r j := ⟨i 0, i 1, eq_ix2 i⟩
  rw [result_apply, val_main_v52_apply, val_main_v49_apply, outBiasRow]
  unfold rowOut project
  refine congrArg (fun s => s + x4 (ix1 j)) (Finset.sum_congr rfl fun k _ => ?_)
  rw [lidx49, ridx49, outWeightsT, val_main_v47_apply, val_main_v45_apply, scaleSplat, layer3, cross_eq]
  rfl

end Cert.ReferenceIdeal.Rows

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BlockRows.lean ====
/-
  The kernel's body on one block of 512 rows, read at an entry `(p, q)` of the block.

  The body loads the block `x` of 512 rows, the whole transposed weight stack, the biases, the transposed output weights
  and the output bias, and stores one value: it forms the interaction term from `x` and its lane sums, sends `x` through
  the four layers (each a product with a slice of the transposed stack into a zero accumulator, a bias row, a
  rectifier), adds the two, scales by the splat of `0x3F000000`, and applies the output product and bias. The changes of
  number format before each product are the identity on the extended reals.

  Three stages are named as vector functions (`crossBlk`, `denseBlk`, `headBlk`); the stored value IS their composition, by
  unfolding (`payload_eq`). Each stage read along row `p` of the block is the corresponding function of rows in
  `Cert.FmTower` (`crossBlk_row`, `denseBlk_row`, `headBlk_row`): a product at `(p, q)` is the sum over the contracted
  coordinate `k` of the left operand at `(p, k)` times the right at `(k, q)`, and the right operand, stored transposed, at
  `(k, q)` is the weight from feature `k` to feature `q`. So row `p` of what the body stores is `rowOut` of row `p` of `x`.
-/
import proofs.«180553_j66468913873627_1_alg».proof.Proof.Gen.KernelIdeal.Frame
import proofs.«180553_j66468913873627_1_alg».proof.Proof.RowMath
import proofs.«180553_j66468913873627_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.FmTower Cert.LibColumn
open Idealize.ShloMosaic Idealize.ShloMosaic.ValueIdx

/-! ## A product of a `[512, 1024]` block with a `[1024, 1024]` matrix, read at an entry -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into a zero accumulator the product at `(p, q)` is `∑ k, l (p, k) * w (k, q)`: the contraction index has one
    coordinate, which the sum runs over. -/
theorem matmul_at (l : FVec Ideal S512x1024 .bf16) (w : FVec Ideal S1024x1024 .bf16) (p : Fin 512) (q : Fin 1024) :
    matmul dot_S512x1024_S1024x1024_S512x1024_1_0_0_1_n_n none l w (constant S512x1024 .f32 0x00000000#32) (ix2 p q)
      = ∑ k : Fin 1024, l (ix2 p k) * w (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- A bias vector laid as one row and repeated over the block's rows reads, at `(p, q)`, the bias at `q`. -/
theorem biasRow_at (b : FVec Ideal S1024 .f32) (p : Fin 512) (q : Fin 1024) :
    broadcastTo S512x1024 (shapeCast S1x1024 b shapeCasts_S1024_S1x1024) broadcasts_S1x1024_S512x1024 (ix2 p q) = b (ix1 q) := by
  rw [broadcastTo_1b_ab_apply, shapeCast_a_1a_apply]

/-- The lane sum of the block at row `p` is the sum of that row. -/
theorem rowSum_at (x : FVec Ideal S512x1024 .f32) (hacc : (0x00000000#32 : BitVec 32) = 0x00000000#32) (p : Fin 512) :
    multiReduction .add [1] S512 x 0x00000000#32 reduces_S512x1024_S512 (.inl rfl) hacc (ix1 p) = ∑ k : Fin 1024, x (ix2 p k) := by
  refine (Ideal.multiReduction_add_single x 0x00000000#32 reduces_S512x1024_S512 (.inl rfl) hacc (ix1 p)).trans ?_
  refine Finset.sum_congr rfl fun k _ => congrArg x (funext fun a => Fin.ext ?_)
  match a with
  | ⟨0, _⟩ => rfl
  | ⟨1, _⟩ => rfl

/-! ## The three stages as the body writes them -/

/-- The interaction term of a block: `x` times its lane sums kept as a column and repeated along the lanes, rectified. -/
def crossBlk (x : FVec Ideal S512x1024 .f32) : FVec Ideal S512x1024 .f32 :=
  maximumf (mulf x (broadcastTo S512x1024 (shapeCast S512x1
      (multiReduction .add [1] S512 x 0x00000000#32 reduces_S512x1024_S512 (.inl rfl) rfl) shapeCasts_S512_S512x1) broadcasts_S512x1_S512x1024))
    (broadcast S512x1024 (Scalar.ofBits .f32 0x00000000#32))

/-- One dense layer of a block: the product with a stored-transposed matrix into a zero accumulator, the bias row, the rectifier. -/
def denseBlk (h : FVec Ideal S512x1024 .f32) (w : FVec Ideal S1024x1024 .bf16) (b : FVec Ideal S1024 .f32) : FVec Ideal S512x1024 .f32 :=
  maximumf (addf (matmul dot_S512x1024_S1024x1024_S512x1024_1_0_0_1_n_n none (truncf .bf16 h bitsLt_bf16_f32) w (constant S512x1024 .f32 0x00000000#32))
      (broadcastTo S512x1024 (shapeCast S1x1024 b shapeCasts_S1024_S1x1024) broadcasts_S1x1024_S512x1024))
    (broadcast S512x1024 (Scalar.ofBits .f32 0x00000000#32))

/-- The head of a block: the two branches added, scaled, multiplied with the stored-transposed output weights, plus the output bias row. -/
def headBlk (h c : FVec Ideal S512x1024 .f32) (wo : FVec Ideal S1024x1024 .bf16) (bo : FVec Ideal S1024 .f32) : FVec Ideal S512x1024 .f32 :=
  addf (matmul dot_S512x1024_S1024x1024_S512x1024_1_0_0_1_n_n none
      (truncf .bf16 (mulf (addf h c) (broadcast S512x1024 (Scalar.ofBits .f32 0x3F000000#32))) bitsLt_bf16_f32) wo (constant S512x1024 .f32 0x00000000#32))
    (broadcastTo S512x1024 (shapeCast S1x1024 bo shapeCasts_S1024_S1x1024) broadcasts_S1x1024_S512x1024)

theorem crossBlk_row (x : FVec Ideal S512x1024 .f32) (p : Fin 512) :
    (fun q => crossBlk x (ix2 p q)) = cross (fun k => x (ix2 p k)) := by
  funext q
  unfold crossBlk cross
  rw [maximumf_apply, mulf_apply, broadcastTo_a1_ab_apply, shapeCast_a_a1_apply, broadcast_apply]
  exact congrArg₂ max (congrArg (fun s => x (ix2 p q) * s) (rowSum_at x _ p)) Ideal.ofBits_zero_f32

theorem denseBlk_row (h : FVec Ideal S512x1024 .f32) (w : FVec Ideal S1024x1024 .bf16) (b : FVec Ideal S1024 .f32)
    (W : Mat) (β : Row) (hW : ∀ j k, w (ix2 k j) = W j k) (hβ : ∀ j, b (ix1 j) = β j) (p : Fin 512) :
    (fun q => denseBlk h w b (ix2 p q)) = dense W β (fun k => h (ix2 p k)) := by
  funext q
  unfold denseBlk dense
  rw [maximumf_apply, addf_apply, matmul_at, biasRow_at, broadcast_apply, hβ]
  show max ((∑ k : Fin 1024, h (ix2 p k) * w (ix2 k q)) + β q) (Ideal.ofBits .f32 0x00000000#32) = _
  rw [Ideal.ofBits_zero_f32]
  exact congrArg (fun s => max (s + β q) 0) (Finset.sum_congr rfl fun k _ => by rw [hW])

theorem headBlk_row (h c : FVec Ideal S512x1024 .f32) (wo : FVec Ideal S1024x1024 .bf16) (bo : FVec Ideal S1024 .f32)
    (Wo : Mat) (β : Row) (hW : ∀ j k, wo (ix2 k j) = Wo j k) (hβ : ∀ j, bo (ix1 j) = β j) (p : Fin 512) :
    (fun q => headBlk h c wo bo (ix2 p q))
      = project Wo β (blend half (fun k => h (ix2 p k)) (fun k => c (ix2 p k))) := by
  funext q
  unfold headBlk project blend
  rw [addf_apply, matmul_at, biasRow_at, hβ]
  show (∑ k : Fin 1024, (h (ix2 p k) + c (ix2 p k)) * half * wo (ix2 k q)) + β q = _
  exact congrArg (fun s => s + β q) (Finset.sum_congr rfl fun k _ => by rw [hW])

/-! ## What the body loads -/

theorem zeros2 : (![0, 0] : Fin 2 → Nat) = fun _ => 0 := funext fun a => by
  match a with
  | ⟨0, _⟩ => rfl
  | ⟨1, _⟩ => rfl
theorem zeros1 : (![0] : Fin 1 → Nat) = fun _ => 0 := funext fun a => by
  match a with
  | ⟨0, _⟩ => rfl

/-- Slice `l` of the transposed stack, its unit axis dropped: entry `(k, j)` is the stack's `(l, k, j)`, the weight of
    layer `l` from feature `k` to feature `j`. -/
theorem weights0 (x1 : Vec Ideal S4x1024x1024 .bf16) (j k : Fin 1024) :
    shapeCast S1024x1024 (View.ld x1 r0_1) shapeCasts_S1x1024x1024_S1024x1024 (ix2 k j) = matOfT x1 0 j k := by
  refine (shapeCast_1ab_ab_apply (View.ld x1 r0_1) shapeCasts_S1x1024x1024_S1024x1024 k j).trans ?_
  refine congrArg x1 (funext fun a => Fin.ext ?_)
  match a with
  | ⟨0, _⟩ => rfl
  | ⟨1, _⟩ => show 0 + 1 * k.val = k.val; omega
  | ⟨2, _⟩ => show 0 + 1 * j.val = j.val; omega
theorem weights1 (x1 : Vec Ideal S4x1024x1024 .bf16) (j k : Fin 1024) :
    shapeCast S1024x1024 (View.ld x1 r0_3) shapeCasts_S1x1024x1024_S1024x1024 (ix2 k j) = matOfT x1 1 j k := by
  refine (shapeCast_1ab_ab_apply (View.ld x1 r0_3) shapeCasts_S1x1024x1024_S1024x1024 k j).trans ?_
  refine congrArg x1 (funext fun a => Fin.ext ?_)
  match a with
  | ⟨0, _⟩ => rfl
  | ⟨1, _⟩ => show 0 + 1 * k.val = k.val; omega
  | ⟨2, _⟩ => show 0 + 1 * j.val = j.val; omega
theorem weights2 (x1 : Vec Ideal S4x1024x1024 .bf16) (j k : Fin 1024) :
    shapeCast S1024x1024 (View.ld x1 r0_5) shapeCasts_S1x1024x1024_S1024x1024 (ix2 k j) = matOfT x1 2 j k := by
  refine (shapeCast_1ab_ab_apply (View.ld x1 r0_5) shapeCasts_S1x1024x1024_S1024x1024 k j).trans ?_
  refine congrArg x1 (funext fun a => Fin.ext ?_)
  match a with
  | ⟨0, _⟩ => rfl
  | ⟨1, _⟩ => show 0 + 1 * k.val = k.val; omega
  | ⟨2, _⟩ => show 0 + 1 * j.val = j.val; omega
theorem weights3 (x1 : Vec Ideal S4x1024x1024 .bf16) (j k : Fin 1024) :
    shapeCast S1024x1024 (View.ld x1 r0_7) shapeCasts_S1x1024x1024_S1024x1024 (ix2 k j) = matOfT x1 3 j k := by
  refine (shapeCast_1ab_ab_apply (View.ld x1 r0_7) shapeCasts_S1x1024x1024_S1024x1024 k j).trans ?_
  refine congrArg x1 (funext fun a => Fin.ext ?_)
  match a with
  | ⟨0, _⟩ => rfl
  | ⟨1, _⟩ => show 0 + 1 * k.val = k.val; omega
  | ⟨2, _⟩ => show 0 + 1 * j.val = j.val; omega

/-- Row `l` of the bias array, its unit axis dropped. -/
theorem bias0 (x2 : Vec Ideal S4x1024 .f32) (j : Fin 1024) :
    shapeCast S1024 (View.ld x2 r0_2) shapeCasts_S1x1024_S1024 (ix1 j) = biasOf x2 0 j := by
  refine (shapeCast_1a_a_apply (View.ld x2 r0_2) shapeCasts_S1x1024_S1024 j).trans ?_
  refine congrArg x2 (funext fun a => Fin.ext ?_)
  match a with
  | ⟨0, _⟩ => rfl
  | ⟨1, _⟩ => show 0 + 1 * j.val = j.val; omega
theorem bias1 (x2 : Vec Ideal S4x1024 .f32) (j : Fin 1024) :
    shapeCast S1024 (View.ld x2 r0_4) shapeCasts_S1x1024_S1024 (ix1 j) = biasOf x2 1 j := by
  refine (shapeCast_1a_a_apply (View.ld x2 r0_4) shapeCasts_S1x1024_S1024 j).trans ?_
  refine congrArg x2 (funext fun a => Fin.ext ?_)
  match a with
  | ⟨0, _⟩ => rfl
  | ⟨1, _⟩ => show 0 + 1 * j.val = j.val; omega
theorem bias2 (x2 : Vec Ideal S4x1024 .f32) (j : Fin 1024) :
    shapeCast S1024 (View.ld x2 r0_6) shapeCasts_S1x1024_S1024 (ix1 j) = biasOf x2 2 j := by
  refine (shapeCast_1a_a_apply (View.ld x2 r0_6) shapeCasts_S1x1024_S1024 j).trans ?_
  refine congrArg x2 (funext fun a => Fin.ext ?_)
  match a with
  | ⟨0, _⟩ => rfl
  | ⟨1, _⟩ => show 0 + 1 * j.val = j.val; omega
theorem bias3 (x2 : Vec Ideal S4x1024 .f32) (j : Fin 1024) :
    shapeCast S1024 (View.ld x2 r0_8) shapeCasts_S1x1024_S1024 (ix1 j) = biasOf x2 3 j := by
  refine (shapeCast_1a_a_apply (View.ld x2 r0_8) shapeCasts_S1x1024_S1024 j).trans ?_
  refine congrArg x2 (funext fun a => Fin.ext ?_)
  match a with
  | ⟨0, _⟩ => rfl
  | ⟨1, _⟩ => show 0 + 1 * j.val = j.val; omega

/-- The transposed output weights, cast to their own shape: entry `(k, j)` is the weight from feature `k` to feature `j`. -/
theorem outWeights (x3 : Vec Ideal S1024x1024 .bf16) (j k : Fin 1024) :
    shapeCast S1024x1024 x3 shapeCasts_S1024x1024_S1024x1024 (ix2 k j) = outMatT x3 j k := by
  rw [shapeCast_self]

/-! ## The stored value is the stages composed -/

/-- What the body stores, over its loads (the block, the transposed output weights and the output bias loaded whole), is
    `headBlk` of the tower of four `denseBlk`s and of `crossBlk`: the payload's `have`s substituted. -/
theorem payload_eq (x0 : Vec Ideal S512x1024 .f32) (x1 : Vec Ideal S4x1024x1024 .bf16) (x2 : Vec Ideal S4x1024 .f32)
    (x3 : Vec Ideal S1024x1024 .bf16) (x4 : Vec Ideal S1024 .f32) :
    k0_pay1 (F := Ideal) (k0_pay2 x0) (k0_pay3 (View.ld x2 r0_6))
        (k0_pay4 x0 (View.ld x1 r0_1) (View.ld x2 r0_2) (View.ld x1 r0_3) (View.ld x2 r0_4) (View.ld x1 r0_5))
        (View.ld x1 r0_7) (View.ld x2 r0_8) x3 x4
      = headBlk
          (denseBlk
            (denseBlk
              (denseBlk
                (denseBlk x0 (shapeCast S1024x1024 (View.ld x1 r0_1) shapeCasts_S1x1024x1024_S1024x1024)
                  (shapeCast S1024 (View.ld x2 r0_2) shapeCasts_S1x1024_S1024))
                (shapeCast S1024x1024 (View.ld x1 r0_3) shapeCasts_S1x1024x1024_S1024x1024)
                (shapeCast S1024 (View.ld x2 r0_4) shapeCasts_S1x1024_S1024))
              (shapeCast S1024x1024 (View.ld x1 r0_5) shapeCasts_S1x1024x1024_S1024x1024)
              (shapeCast S1024 (View.ld x2 r0_6) shapeCasts_S1x1024_S1024))
            (shapeCast S1024x1024 (View.ld x1 r0_7) shapeCasts_S1x1024x1024_S1024x1024)
            (shapeCast S1024 (View.ld x2 r0_8) shapeCasts_S1x1024_S1024))
          (crossBlk x0) (shapeCast S1024x1024 x3 shapeCasts_S1024x1024_S1024x1024) x4 := rfl

/-! ## Row `p` of what the body stores -/

/-- Row `p` of the block the body leaves is `rowOut` of row `p` of the block it loaded, with the weights read out of
    the transposed arrays. -/
theorem block_row (x0 : Vec Ideal S512x1024 .f32) (x1 : Vec Ideal S4x1024x1024 .bf16) (x2 : Vec Ideal S4x1024 .f32)
    (x3 : Vec Ideal S1024x1024 .bf16) (x4 : Vec Ideal S1024 .f32) (p : Fin 512) :
    (fun q => out0_5 x0 x1 x2 x3 x4 (ix2 p q))
      = rowOut half (matOfT x1) (biasOf x2) (outMatT x3) (outBias x4) (fun k => x0 (ix2 p k)) := by
  unfold out0_5
  rw [View.canon_unit_zero zeros2]
  simp only [View.ld_unit_zero (S := S512x1024) zeros2, View.ld_unit_zero (S := S1024x1024) zeros2,
    View.ld_unit_zero (S := S1024) zeros1]
  rw [payload_eq, headBlk_row _ _ _ _ (outMatT x3) (outBias x4) (outWeights x3) (fun _ => rfl) p, crossBlk_row,
    denseBlk_row _ _ _ (matOfT x1 3) (biasOf x2 3) (weights3 x1) (bias3 x2) p,
    denseBlk_row _ _ _ (matOfT x1 2) (biasOf x2 2) (weights2 x1) (bias2 x2) p,
    denseBlk_row _ _ _ (matOfT x1 1) (biasOf x2 1) (weights1 x1) (bias1 x2) p,
    denseBlk_row _ _ _ (matOfT x1 0) (biasOf x2 0) (weights0 x1) (bias0 x2) p]
  rfl

end Cert.KernelIdeal.Block

end
-- ==== Proof.ArrayRows.lean ====
/-
  From the blocks to the array: the kernel's result array is `Cert.FmTower.result` of the five argument arrays.

  The grid has 32 points. At point `t` the body sees rows `512 t … 512 t + 511` of `x`, and ALL of the other four
  operands (their block index is `0` at every point), and writes back rows `512 t … 512 t + 511` of the result. Two of
  the operands are not arguments but arrays the program writes before the region: the weight stack with its last two
  axes swapped, and the output weights transposed (each then changed in number format, which is the identity here).
  So the stacked matrix the body reads at `(l, k, j)` is the argument's `(l, j, k)`, which is what `matOfT` against
  `matOf` says, and likewise for the output weights.

  Row `p` of what point `t` writes back is `rowOut` of row `p` of its block of `x` (`Block.block_row`), that is of row
  `512 t + p` of `x`: block `t` of `result`. Row `r` lies in the block of point `r / 512`, so the blocks cover the array.
-/
import proofs.«180553_j66468913873627_1_alg».proof.Proof.Gen.KernelIdeal.Value
import proofs.«180553_j66468913873627_1_alg».proof.Proof.BlockRows
import proofs.«180553_j66468913873627_1_alg».proof.Proof.RowMath
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Rows

open Cert.KernelIdeal Cert.KernelIdeal.Gen Cert.KernelIdeal.Block Cert.FmTower
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array on core `c`, as one function of the argument arrays as launched. -/
abbrev out (c : Dev nD) : S16384x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4))

/-! ## The two arrays the program writes before the region -/

/-- The staged weight stack is the argument with its last two axes swapped. -/
theorem stagedStack (c : Dev nD) (l : Fin 4) (k j : Fin 1024) :
    (V m c main_v1 : S4x1024x1024.Idx → EReal) (ix3 l k j) = (m ((c : Thread nD τ).loc main_arg1)) (ix3 l j k) := by
  have e : (V m c main_v1 : S4x1024x1024.Idx → EReal)
      = truncf (F := Ideal) .bf16 (transpose S4x1024x1024 [0, 2, 1] (m ((c : Thread nD τ).loc main_arg1)) transposes_S4x1024x1024_S4x1024x1024_0_2_1) bitsLt_bf16_f32 := by
    dsimp only [Gen.V, Gen.hostOps0]; after_results
  rw [e]
  exact transpose_ix3_021_apply _ transposes_S4x1024x1024_S4x1024x1024_0_2_1 l k j

/-- The staged output weights are the argument transposed. -/
theorem stagedOut (c : Dev nD) (k j : Fin 1024) :
    (V m c main_v3 : S1024x1024.Idx → EReal) (ix2 k j) = (m ((c : Thread nD τ).loc main_arg3)) (ix2 j k) := by
  have e : (V m c main_v3 : S1024x1024.Idx → EReal)
      = truncf (F := Ideal) .bf16 (transpose S1024x1024 [1, 0] (m ((c : Thread nD τ).loc main_arg3)) transposes_S1024x1024_S1024x1024_1_0) bitsLt_bf16_f32 := by
    dsimp only [Gen.V, Gen.hostOps0]; after_results
  rw [e]
  exact transpose_ix2_apply _ transposes_S1024x1024_S1024x1024_1_0 k j

/-! ## Where each window's block lies -/

/-- The printed index maps over the 32 points: the block of `x` and of the result move with the point along the rows;
    every other operand stays at block `0`. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row `512 t + p` of the array. -/
def rowAt (t : Fin cfg0.N) (p : Fin 512) : Fin 16384 :=
  ⟨t.val * 512 + p.val, by have ht : t.val < 32 := t.isLt; have hp := p.isLt; omega⟩

theorem xBlock_at (c : Dev nD) (t : Fin cfg0.N) (p : Fin 512) (k : Fin 1024) :
    iblk m c 0 t (ix2 p k) = (m ((c : Thread nD τ).loc main_arg0)) (ix2 (rowAt t p) k) := by
  obtain ⟨e00, e01, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

theorem stackBlock_at (c : Dev nD) (t : Fin cfg0.N) (l : Fin 4) (k j : Fin 1024) :
    iblk m c 1 t (ix3 l k j) = (m ((c : Thread nD τ).loc main_arg1)) (ix3 l j k) := by
  obtain ⟨-, -, e10, e11, e12, -⟩ := idx_facts t
  show V m c main_v1 (((cfg0.win 1).blk t).view.emb (ix3 l k j)) = _
  refine (congrArg (V m c main_v1) (funext fun a => Fin.ext ?_)).trans (stagedStack m c l k j)
  match a with
  | ⟨0, _⟩ => show win0_1.index t (0 : Fin 3) * 4 + 1 * l.val = l.val; omega
  | ⟨1, _⟩ => show win0_1.index t (1 : Fin 3) * 1024 + 1 * k.val = k.val; omega
  | ⟨2, _⟩ => show win0_1.index t (2 : Fin 3) * 1024 + 1 * j.val = j.val; omega

theorem biasBlock_at (c : Dev nD) (t : Fin cfg0.N) (l : Fin 4) (j : Fin 1024) :
    iblk m c 2 t (ix2 l j) = (m ((c : Thread nD τ).loc main_arg2)) (ix2 l j) := by
  obtain ⟨-, -, -, -, -, e20, e21, -⟩ := idx_facts t
  show V m c main_arg2 (((cfg0.win 2).blk t).view.emb (ix2 l j)) = _
  rw [V_main_arg2]
  refine congrArg (m ((c : Thread nD τ).loc main_arg2)) (funext fun a => Fin.ext ?_)
  match a with
  | ⟨0, _⟩ => show win0_2.index t (0 : Fin 2) * 4 + 1 * l.val = l.val; omega
  | ⟨1, _⟩ => show win0_2.index t (1 : Fin 2) * 1024 + 1 * j.val = j.val; omega

theorem outBlock_at (c : Dev nD) (t : Fin cfg0.N) (k j : Fin 1024) :
    iblk m c 3 t (ix2 k j) = (m ((c : Thread nD τ).loc main_arg3)) (ix2 j k) := by
  obtain ⟨-, -, -, -, -, -, -, e30, e31, -⟩ := idx_facts t
  show V m c main_v3 (((cfg0.win 3).blk t).view.emb (ix2 k j)) = _
  refine (congrArg (V m c main_v3) (funext fun a => Fin.ext ?_)).trans (stagedOut m c k j)
  match a with
  | ⟨0, _⟩ => show win0_3.index t (0 : Fin 2) * 1024 + 1 * k.val = k.val; omega
  | ⟨1, _⟩ => show win0_3.index t (1 : Fin 2) * 1024 + 1 * j.val = j.val; omega

theorem outBiasBlock_at (c : Dev nD) (t : Fin cfg0.N) (j : Fin 1024) :
    iblk m c 4 t (ix1 j) = (m ((c : Thread nD τ).loc main_arg4)) (ix1 j) := by
  obtain ⟨-, -, -, -, -, -, -, -, -, e40, -⟩ := idx_facts t
  show V m c main_arg4 (((cfg0.win 4).blk t).view.emb (ix1 j)) = _
  rw [V_main_arg4]
  refine congrArg (m ((c : Thread nD τ).loc main_arg4)) (funext fun a => Fin.ext ?_)
  match a with
  | ⟨0, _⟩ => show win0_4.index t (0 : Fin 1) * 1024 + 1 * j.val = j.val; omega

/-! ## What a point writes back -/

/-- WHAT POINT `t` WRITES BACK is block `t` of `result` of the arguments. -/
theorem flushed5_eq (c : Dev nD) (t : Fin cfg0.N) :
    (dats m 0 c).flushed 5 t = ((cfg0.win 5).blk t).view.read (Elt Ideal) (out m c) := by
  rw [Value.flushed5]
  obtain ⟨-, -, -, -, -, -, -, -, -, -, e50, e51⟩ := idx_facts t
  funext y
  have hy0 : (y 0).val < 512 := (y 0).isLt
  have hy1 : (y 1).val < 1024 := (y 1).isLt
  show out0_5 (iblk m c 0 t) (iblk m c 1 t) (iblk m c 2 t) (iblk m c 3 t) (iblk m c 4 t) y
    = out m c (((cfg0.win 5).blk t).view.emb y)
  refine (congrArg (out0_5 (iblk m c 0 t) (iblk m c 1 t) (iblk m c 2 t) (iblk m c 3 t) (iblk m c 4 t)) (eq_ix2 y)).trans ?_
  refine (congrFun (block_row (iblk m c 0 t) (iblk m c 1 t) (iblk m c 2 t) (iblk m c 3 t) (iblk m c 4 t) (y 0)) (y 1)).trans ?_
  have h1 : matOfT (iblk m c 1 t) = matOf (m ((c : Thread nD τ).loc main_arg1)) :=
    funext fun l => funext fun j => funext fun k => stackBlock_at m c t l k j
  have h2 : biasOf (iblk m c 2 t) = biasOf (m ((c : Thread nD τ).loc main_arg2)) :=
    funext fun l => funext fun j => biasBlock_at m c t l j
  have h3 : outMatT (iblk m c 3 t) = outMat (m ((c : Thread nD τ).loc main_arg3)) :=
    funext fun j => funext fun k => outBlock_at m c t k j
  have h4 : outBias (iblk m c 4 t) = outBias (m ((c : Thread nD τ).loc main_arg4)) :=
    funext fun j => outBiasBlock_at m c t j
  have hr : (((cfg0.win 5).blk t).view.emb y) 0 = rowAt t (y 0) := Fin.ext (by
    show win0_5.index t (0 : Fin 2) * 512 + 1 * (y 0).val = t.val * 512 + (y 0).val; omega)
  have hq : y 1 = (((cfg0.win 5).blk t).view.emb y) 1 := Fin.ext (by
    show (y 1).val = win0_5.index t (1 : Fin 2) * 1024 + 1 * (y 1).val; omega)
  have h0 : (fun k => iblk m c 0 t (ix2 (y 0) k)) = rowOf (m ((c : Thread nD τ).loc main_arg0)) ((((cfg0.win 5).blk t).view.emb y) 0) := by
    rw [hr]; exact funext fun k => xBlock_at m c t (y 0) k
  rw [h1, h2, h3, h4]
  exact congrArg₂ (rowOut half (matOf (m ((c : Thread nD τ).loc main_arg1))) (biasOf (m ((c : Thread nD τ).loc main_arg2))) (outMat (m ((c : Thread nD τ).loc main_arg3))) (outBias (m ((c : Thread nD τ).loc main_arg4)))) h0 hq

/-! ## The blocks cover the array -/

/-- An index of the array is in point `t`'s block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4).slice (win0_5.rect t)).set ↔ _
  rw [View.set_slice_whole, Rect.mem_set_unit]
  exact Iff.rfl

/-- Row `r` is written back by point `r / 512`. -/
theorem cover5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have ht : (i 0).val / 512 < cfg0.N := by show (i 0).val / 512 < 32; omega
  obtain ⟨-, -, -, -, -, -, -, -, -, -, e50, e51⟩ := idx_facts ⟨(i 0).val / 512, ht⟩
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, ht⟩ (1 : Fin 2) * 1024 ≤ (i 1).val ∧ (i 1).val < win0_5.index ⟨(i 0).val / 512, ht⟩ (1 : Fin 2) * 1024 + 1024
    rw [e51]; omega

/-- THE ARRAY after the run is `result` of the arguments. -/
theorem final5 (c : Dev nD) : (dats m 0 c).arrAt 5 cfg0.N = out m c :=
  (dats m 0 c).arrAt_eq_of_cover 5 (out m c) (fun t _ => flushed5_eq m c t) cover5

/-! ## The run -/

/-- Every execution of the kernel's program ends with the result array at `result` of the arguments and the arguments unchanged. -/
theorem run : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (Value.run_blocks m ρ)

end Cert.KernelIdeal.Rows

end
-- ==== Proof.lean ====
/-
  The certificate of a fused block of a factorization-machine model with a dense tower: for a batch `x` of 16384 rows
  of 1024 features, each row becomes

      ((tower x + cross x) * 0.5) · Woᵀ + bo,

  where `cross x j = max (x j * ∑ k, x k) 0` is the pairwise-interaction term and `tower` is four dense layers
  `h ↦ max (h · Wᵀ + b) 0`. The kernel handles 512 rows per grid point, keeps the transposed weights resident, and
  narrows each product's left operand to a shorter float format; the reference is the same chain of whole-array
  operations. On the extended reals the format changes are the identity and both programs compute the SAME sums of the
  SAME products in the same grouping, so the two results are one function (`Cert.FmTower.result`) of the arguments, with no
  algebraic law beyond `0 + a = a` (the reference's row sum starts from the zero word) and no use of the inputs' finiteness.

  The pieces:
  * Proof/RowMath.lean — the row functions and `result`;
  * Proof/RefRows.lean — the reference's last stage is `result`, climbing its stages with the generated index-by-index
    readings;
  * Proof/BlockRows.lean — row `p` of the block a grid point's body leaves is `rowOut` of row `p` of the block it loaded;
  * Proof/ArrayRows.lean — the blocks are blocks of `result`, they cover the array, so the kernel's result array is `result`;
  * Proof/LibColumn.lean — a row total kept as a column and repeated over the row, read at an entry.
  The three frames are the generated frame certificates (the reference's is its generated run with the result dropped);
  the idealization rewrote nothing, so `preserves` is `True`.
-/
import proofs.«180553_j66468913873627_1_alg».proof.Defs
import proofs.«180553_j66468913873627_1_alg».proof.Proof.Gen.Kernel
import proofs.«180553_j66468913873627_1_alg».proof.Proof.Gen.Kernel.Skeleton
import proofs.«180553_j66468913873627_1_alg».proof.Proof.Gen.Kernel.Launch
import proofs.«180553_j66468913873627_1_alg».proof.Proof.Gen.Kernel.Points
import proofs.«180553_j66468913873627_1_alg».proof.Proof.Gen.Kernel.Frame
import proofs.«180553_j66468913873627_1_alg».proof.Proof.Gen.KernelIdeal
import proofs.«180553_j66468913873627_1_alg».proof.Proof.Gen.KernelIdeal.Skeleton
import proofs.«180553_j66468913873627_1_alg».proof.Proof.Gen.KernelIdeal.Launch
import proofs.«180553_j66468913873627_1_alg».proof.Proof.Gen.KernelIdeal.Points
import proofs.«180553_j66468913873627_1_alg».proof.Proof.Gen.KernelIdeal.Frame
import proofs.«180553_j66468913873627_1_alg».proof.Proof.Gen.ReferenceIdeal
import proofs.«180553_j66468913873627_1_alg».proof.Proof.Gen.Pre_finite_inputs
import proofs.«180553_j66468913873627_1_alg».proof.Proof.Gen.KernelIdeal.Value
import proofs.«180553_j66468913873627_1_alg».proof.Proof.Gen.ReferenceIdeal.Run
import proofs.«180553_j66468913873627_1_alg».proof.Proof.Gen.ReferenceIdeal.Read
import proofs.«180553_j66468913873627_1_alg».proof.Proof.RowMath
import proofs.«180553_j66468913873627_1_alg».proof.Proof.RefRows
import proofs.«180553_j66468913873627_1_alg».proof.Proof.BlockRows
import proofs.«180553_j66468913873627_1_alg».proof.Proof.ArrayRows
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a chain of host operations; its generated run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at `result` of its arguments
    (`Rows.run`) and the reference's at its last stage of its own (`Value.run`), which is `result` of them
    (`reference_eq_result`): equal arrays. -/
theorem algebraic : Cert.algebraic_KernelIdeal_ReferenceIdeal := by
  intro m ρ m' ρ' _ hagree
  refine ⟨fun c => Cert.KernelIdeal.Rows.out m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.Rows.reference_eq_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
